-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000x16 .f32) (main_arg3 : IVec S100000 32) (main_arg4 : FVec F S144x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x128 .f32 := Host.absf main_arg4
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S16x128 : Shape := ⟨2, ![16, 128]⟩
abbrev S1x128 : Shape := ⟨2, ![1, 128]⟩
abbrev S8000x128 : Shape := ⟨2, ![8000, 128]⟩
abbrev S8000x16 : Shape := ⟨2, ![8000, 16]⟩
abbrev S100000x1 : Shape := ⟨2, ![100000, 1]⟩
abbrev S10000x128 : Shape := ⟨2, ![10000, 128]⟩

abbrev nBuf : Space → Nat
  | .hbm => 55
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S144x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S128x128, .f32⟩
  | .hbm, ⟨27, _⟩ => ⟨S128x128, .bf16⟩
  | .hbm, ⟨28, _⟩ => ⟨S16x128, .f32⟩
  | .hbm, ⟨29, _⟩ => ⟨S16x128, .bf16⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S128x128, .bf16⟩
  | .hbm, ⟨51, _⟩ => ⟨S128x128, .bf16⟩
  | .hbm, ⟨52, _⟩ => ⟨S1x128, .f32⟩
  | .hbm, ⟨53, _⟩ => ⟨S1x128, .f32⟩
  | .hbm, ⟨54, _⟩ => ⟨S100000x128, .f32⟩
  | .local _ .vmem, ⟨0, _⟩ => ⟨S8000x128, .bf16⟩
  | .local _ .vmem, ⟨1, _⟩ => ⟨S8000x128, .bf16⟩
  | .local _ .vmem, ⟨2, _⟩ => ⟨S8000x16, .f32⟩
  | .local _ .vmem, ⟨3, _⟩ => ⟨S8000x16, .f32⟩
  | .local _ .vmem, ⟨4, _⟩ => ⟨S128x128, .bf16⟩
  | .local _ .vmem, ⟨5, _⟩ => ⟨S16x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S10000x128, .f32⟩
  | .local _ .vmem, ⟨12, _⟩ => ⟨S10000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x128_S128x128_0_0 : S144x128.Slices ![0, 0] S128x128
  slices_S144x128_S16x128_128_0 : S144x128.Slices ![128, 0] S16x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x16_S8000x16_0_0 : ∀ a, (![0, 0] : Fin 2 → Nat) a + S8000x16.size a ≤ S8000x16.size a
  h_S8000x16 : 0 < S8000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x16_S16x128_S8000x128_1_0_0_1_n_n_wf : DotDims.WF S8000x16 S16x128 S8000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .bf16 = 32 ∨ (Rect.block (s := S1600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S1600000x16.size a
  hwx0_1 : ∀ i : grid0.Coords, EltTy.bits .f32 = 32 ∨ (Rect.block (s := S1600000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .bf16 = 32 ∨ (Rect.block (s := S16x128) S16x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S1600000x128.size a
  hwx0_7 : ∀ i : grid0.Coords, EltTy.bits .f32 = 32 ∨ (Rect.block (s := S1600000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x144 : Shape := ⟨2, ![1600000, 144]⟩
abbrev S1x128 : Shape := ⟨2, ![1, 128]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S144x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x144, .f32⟩
  | .hbm, ⟨26, _⟩ => ⟨S1600000x128, .f32⟩
  | .hbm, ⟨27, _⟩ => ⟨S1x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S1x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x16_S1600000x144_d1 : Shape.Concatenates [S1600000x128, S1600000x16] S1600000x144 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x144_S144x128_S1600000x128_1_0_0_1_n_n_wf : DotDims.WF S1600000x144 S144x128 S1600000x128 [1] [0] [0] [1] [] []
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x144_S144x128_S1600000x128_1_0_0_1_n_n : DotDims S1600000x144 S144x128 S1600000x128 where
  lhsContracting := [1]
  rhsContracting := [0]
  lhsNonContracting := [0]
  rhsNonContracting := [1]
  lhsBatch := []
  rhsBatch := []
  wf := dot_S1600000x144_S144x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostChains.lean ====
/-
  The host operations of the kernel's program around its two regions, as functions of the arguments.

  Before the first region: the source-node indices (row 1 of edge_index, a negative index wrapped by the table's
  length), the gather of x's rows at them, the two row ranges of W1, and the biases as one-row matrices. Between the
  regions: the scatter-add of the edge messages by destination node (row 0 of edge_index), the scatter-added count
  of ones, and their quotient with the count held at least 1 — the mean message. Each buffer the regions read is
  identified with its function of the launch memory by reading the operations' results back one at a time.
-/
import proofs.«107027_j12180527251595_1_alg».proof.Proof.Gen.KernelIdeal.Frame
import Idealize.ShloMosaic.Lib.StableHlo.Run

noncomputable section

namespace Cert.KernelIdeal.HostChains

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]

/-- Row `r` of edge_index as a vector of 1,600,000 node indices. -/
def destOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
def srcOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The gathered source features: row `e` is x's row at edge `e`'s source index (a negative index first moved up by
    100000), as the program's gather reads it. -/
def gathered (x : (⟨S100000x128, .f32⟩ : BufTy).Contents (Elt F)) (ei : (⟨S2x1600000, .i32⟩ : BufTy).Contents (Elt F)) :
    (⟨S1600000x128, .bf16⟩ : BufTy).Contents (Elt F) :=
  Host.gather gather_S100000x128_S1600000x1_S1600000x128_1_0_n_n_0_1_1128 (truncf .bf16 x bitsLt_bf16_f32)
    (broadcastInDim S1600000x1 ![0] bcast_S1600000_S1600000x1_0
      (select (cmpi .slt (srcOf ei) (broadcastInDim S1600000 ![] bcast_S_S1600000 (constantI S_ 32 0#32)))
        (addi (srcOf ei) (broadcastInDim S1600000 ![] bcast_S_S1600000 (constantI S_ 32 100000#32))) (srcOf ei)))

/-- The mean message per node: the messages `h` scatter-added by destination node over the count of edges into the
    node, the count held at least 1. -/
def meanOf (h : (⟨S1600000x128, .f32⟩ : BufTy).Contents (Elt F)) (ei : (⟨S2x1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (destOf ei)) h)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (destOf ei))
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## The first region's operands, as it finds them -/

theorem W1_v11 (c : Dev nD) : W1 m ρ c (Proc.devRef .tc main_v11)
    = gathered (m ((c : Thread nD τ).loc main_arg0)) (m ((c : Thread nD τ).loc main_arg1)) := by
  show StableHlo.after hostOps0 (W0 m ρ c) (Proc.devRef .tc main_v11) = _
  after_results
  rfl

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_v13 (c : Dev nD) : W1 m ρ c (Proc.devRef .tc main_v13)
    = truncf .bf16 (extractStridedSlice S128x128 ![0, 0] (m ((c : Thread nD τ).loc main_arg4)) slices_S144x128_S128x128_0_0) bitsLt_bf16_f32 := by
  show StableHlo.after hostOps0 (W0 m ρ c) (Proc.devRef .tc main_v13) = _
  after_results

theorem W1_v15 (c : Dev nD) : W1 m ρ c (Proc.devRef .tc main_v15)
    = truncf .bf16 (extractStridedSlice S16x128 ![128, 0] (m ((c : Thread nD τ).loc main_arg4)) slices_S144x128_S16x128_128_0) bitsLt_bf16_f32 := by
  show StableHlo.after hostOps0 (W0 m ρ c) (Proc.devRef .tc main_v15) = _
  after_results

theorem W1_v16 (c : Dev nD) : W1 m ρ c (Proc.devRef .tc main_v16)
    = truncf .bf16 (m ((c : Thread nD τ).loc main_arg6)) bitsLt_bf16_f32 := by
  show StableHlo.after hostOps0 (W0 m ρ c) (Proc.devRef .tc main_v16) = _
  after_results

theorem W1_v17 (c : Dev nD) : W1 m ρ c (Proc.devRef .tc main_v17)
    = shapeCast S1x128 (m ((c : Thread nD τ).loc main_arg5)) shapeCasts_S128_S1x128 := by
  show StableHlo.after hostOps0 (W0 m ρ c) (Proc.devRef .tc main_v17) = _
  after_results
  rfl

theorem W1_v18 (c : Dev nD) : W1 m ρ c (Proc.devRef .tc main_v18)
    = shapeCast S1x128 (m ((c : Thread nD τ).loc main_arg7)) shapeCasts_S128_S1x128 := by
  show StableHlo.after hostOps0 (W0 m ρ c) (Proc.devRef .tc main_v18) = _
  after_results
  rfl

/-- The destination indices are computed before the first region and no region writes them. -/
theorem W1_v1 (c : Dev nD) : W1 m ρ c (Proc.devRef .tc main_v1) = destOf (m ((c : Thread nD τ).loc main_arg1)) := by
  show StableHlo.after hostOps0 (W0 m ρ c) (Proc.devRef .tc main_v1) = _
  after_results
  rfl

theorem W2_v1 (c : Dev nD) : W2 m ρ c (Proc.devRef .tc main_v1) = destOf (m ((c : Thread nD τ).loc main_arg1)) :=
  (W2_of_ne m ρ c main_v1 (by decide)).trans (W1_v1 m ρ c)

/-- An argument the first stretch and the first region leave alone. -/
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

/-! ## The second region's operands, as it finds them -/

theorem W3_v31 (c : Dev nD) : W3 m ρ c (Proc.devRef .tc main_v31)
    = meanOf (W2 m ρ c (Proc.devRef .tc main_v19)) (m ((c : Thread nD τ).loc main_arg1)) := by
  show StableHlo.after hostOps1 (W2 m ρ c) (Proc.devRef .tc main_v31) = _
  after_results
  rw [W2_v1]
  rfl

theorem W3_v32 (c : Dev nD) : W3 m ρ c (Proc.devRef .tc main_v32)
    = truncf .bf16 (m ((c : Thread nD τ).loc main_arg8)) bitsLt_bf16_f32 := by
  show StableHlo.after hostOps1 (W2 m ρ c) (Proc.devRef .tc main_v32) = _
  after_results
  rw [W2_arg8]

theorem W3_v33 (c : Dev nD) : W3 m ρ c (Proc.devRef .tc main_v33)
    = truncf .bf16 (m ((c : Thread nD τ).loc main_arg10)) bitsLt_bf16_f32 := by
  show StableHlo.after hostOps1 (W2 m ρ c) (Proc.devRef .tc main_v33) = _
  after_results
  rw [W2_arg10]

theorem W3_v34 (c : Dev nD) : W3 m ρ c (Proc.devRef .tc main_v34)
    = shapeCast S1x128 (m ((c : Thread nD τ).loc main_arg9)) shapeCasts_S128_S1x128 := by
  show StableHlo.after hostOps1 (W2 m ρ c) (Proc.devRef .tc main_v34) = _
  after_results
  rw [W2_arg9]
  rfl

theorem W3_v35 (c : Dev nD) : W3 m ρ c (Proc.devRef .tc main_v35)
    = shapeCast S1x128 (m ((c : Thread nD τ).loc main_arg11)) shapeCasts_S128_S1x128 := by
  show StableHlo.after hostOps1 (W2 m ρ c) (Proc.devRef .tc main_v35) = _
  after_results
  rw [W2_arg11]
  rfl

end Cert.KernelIdeal.HostChains

end
-- ==== Proof.Spec.lean ====
/-
  The mathematics both programs compute, stated once over arrays of extended reals.

  An edge's message is a two-layer perceptron of the concatenation [x[col e] ; edge_attr e]: the first layer's
  product with the 144-row weight matrix splits into the 128 feature rows and the 16 attribute rows, then a bias, a
  maximum with zero, a second product and a bias. A node's output is the same two layers (one product per layer)
  applied to the node's mean message. Both are ROW-WISE: row `e` of the result depends on row `e` of the row-indexed
  operands only, which is what lets a tiling by row blocks compute them block by block.
-/
import Idealize.ShloMosaic.PureOps.Ideal
import Idealize.ShloMosaic.Lib.ValueIdx
import Mathlib.Algebra.BigOperators.Fin

noncomputable section

open scoped BigOperators

namespace Cert.Mlp

open Idealize.ShloMosaic Idealize.ShloMosaic.ValueIdx

/-- A matrix of extended reals over the literal shape [r, c]. -/
abbrev Mat (r c : Nat) : Type := (⟨2, ![r, c]⟩ : Shape).Idx → EReal

/-- The index (a, b) of an [r, c] matrix. -/
abbrev at2 {r c : Nat} (a : Fin r) (b : Fin c) : (⟨2, ![r, c]⟩ : Shape).Idx := ix2 a b

/-- The first 128 rows of a 144-row weight matrix. -/
def topRows (w : Mat 144 128) : Mat 128 128 := fun i => w (at2 ⟨(i 0).val, by have := (i 0).isLt; simp at this; omega⟩ (i 1))
/-- Its last 16 rows. -/
def botRows (w : Mat 144 128) : Mat 16 128 := fun i => w (at2 ⟨128 + (i 0).val, by have := (i 0).isLt; simp at this; omega⟩ (i 1))

/-- The edge perceptron at row `e`, column `j`: with
    `h k = max (∑ₐ g[e,a]·wa[a,k] + ∑_b ea[e,b]·wb[b,k] + b1[k]) 0`, the value `∑ₖ h k · w2[k,j] + b2[j]`. -/
def edgeAt {E : Nat} (g : Mat E 128) (ea : Mat E 16) (wa : Mat 128 128) (wb : Mat 16 128) (b1 : Fin 128 → EReal)
    (w2 : Mat 128 128) (b2 : Fin 128 → EReal) (e : Fin E) (j : Fin 128) : EReal :=
  (∑ k : Fin 128, max (((∑ a : Fin 128, g (at2 e a) * wa (at2 a k)) + ∑ b : Fin 16, ea (at2 e b) * wb (at2 b k)) + b1 k) 0
      * w2 (at2 k j)) + b2 j

/-- The edge perceptron as an array. -/
def edgeMlp {E : Nat} (g : Mat E 128) (ea : Mat E 16) (wa : Mat 128 128) (wb : Mat 16 128) (b1 : Fin 128 → EReal)
    (w2 : Mat 128 128) (b2 : Fin 128 → EReal) : Mat E 128 :=
  fun i => edgeAt g ea wa wb b1 w2 b2 (i 0) (i 1)

/-- The node perceptron at row `n`, column `j`: `∑ₖ max (∑ₐ x[n,a]·w3[a,k] + b3[k]) 0 · w4[k,j] + b4[j]`. -/
def nodeAt {N : Nat} (x : Mat N 128) (w3 : Mat 128 128) (b3 : Fin 128 → EReal) (w4 : Mat 128 128) (b4 : Fin 128 → EReal)
    (n : Fin N) (j : Fin 128) : EReal :=
  (∑ k : Fin 128, max ((∑ a : Fin 128, x (at2 n a) * w3 (at2 a k)) + b3 k) 0 * w4 (at2 k j)) + b4 j

/-- The node perceptron as an array. -/
def nodeMlp {N : Nat} (x : Mat N 128) (w3 : Mat 128 128) (b3 : Fin 128 → EReal) (w4 : Mat 128 128) (b4 : Fin 128 → EReal) :
    Mat N 128 :=
  fun i => nodeAt x w3 b3 w4 b4 (i 0) (i 1)

/-- Row-locality of the edge perceptron: if row `p` of the block operands is row `e` of the whole operands, the
    block's value at row `p` is the whole array's at row `e`. -/
theorem edgeAt_row {E R : Nat} (g : Mat E 128) (ea : Mat E 16) (gb : Mat R 128) (eb : Mat R 16) (wa : Mat 128 128) (wb : Mat 16 128)
    (b1 : Fin 128 → EReal) (w2 : Mat 128 128) (b2 : Fin 128 → EReal) (p : Fin R) (e : Fin E) (j : Fin 128)
    (hg : ∀ a : Fin 128, gb (at2 p a) = g (at2 e a)) (he : ∀ b : Fin 16, eb (at2 p b) = ea (at2 e b)) :
    edgeAt gb eb wa wb b1 w2 b2 p j = edgeAt g ea wa wb b1 w2 b2 e j := by
  unfold edgeAt
  simp only [hg, he]

/-- Row-locality of the node perceptron. -/
theorem nodeAt_row {N R : Nat} (x : Mat N 128) (xb : Mat R 128) (w3 : Mat 128 128) (b3 : Fin 128 → EReal) (w4 : Mat 128 128)
    (b4 : Fin 128 → EReal) (p : Fin R) (n : Fin N) (j : Fin 128) (hx : ∀ a : Fin 128, xb (at2 p a) = x (at2 n a)) :
    nodeAt xb w3 b3 w4 b4 p j = nodeAt x w3 b3 w4 b4 n j := by
  unfold nodeAt
  simp only [hx]

/-- A sum over the 144 rows of the concatenated operand is the sum over the 128 feature rows plus the sum over the
    16 attribute rows (addition of extended reals is commutative and associative: no finiteness is needed). -/
theorem sum_split_144 (f : Fin 144 → EReal) :
    ∑ k : Fin 144, f k = (∑ a : Fin 128, f ⟨a.val, by omega⟩) + ∑ b : Fin 16, f ⟨128 + b.val, by omega⟩ := by
  exact Fin.sum_univ_add (M := EReal) (a := 128) (b := 16) (fun k => f k)

end Cert.Mlp

end
-- ==== Proof.IdealForms.lean ====
/-
  At the ideal instance a change of float format is the identity, so the kernel's reduced-precision copies of the
  weights ARE the weights: the two row ranges it slices out of W1 are the specification's `topRows` / `botRows`, a
  converted matrix is the matrix, and a bias reshaped to one row, read at (0, k), is the bias at k.
-/
import proofs.«107027_j12180527251595_1_alg».proof.Proof.Gen.KernelIdeal
import proofs.«107027_j12180527251595_1_alg».proof.Proof.Spec
import Idealize.ShloMosaic.Lib.Pipeline.Value

noncomputable section

namespace Cert.KernelIdeal.IdealForms

open Cert.KernelIdeal Cert.KernelIdeal.Gen Idealize.ShloMosaic Idealize.ShloMosaic.ValueIdx

/-- The first 128 rows of W1, sliced and converted. -/
theorem top_eq (w : (⟨S144x128, .f32⟩ : BufTy).Contents (Elt Ideal)) :
    (truncf (F := Ideal) .bf16 (extractStridedSlice S128x128 ![0, 0] w slices_S144x128_S128x128_0_0) bitsLt_bf16_f32 : S128x128.Idx → EReal)
      = Cert.Mlp.topRows w := by
  funext i
  show extractStridedSlice S128x128 ![0, 0] w slices_S144x128_S128x128_0_0 i = _
  unfold Cert.Mlp.topRows
  exact extractStridedSlice_apply _ w _ i _ (fun a => match a with
    | ⟨0, _⟩ => (Nat.zero_add _).symm
    | ⟨1, _⟩ => (Nat.zero_add _).symm)

/-- The last 16 rows of W1, sliced and converted. -/
theorem bot_eq (w : (⟨S144x128, .f32⟩ : BufTy).Contents (Elt Ideal)) :
    (truncf (F := Ideal) .bf16 (extractStridedSlice S16x128 ![128, 0] w slices_S144x128_S16x128_128_0) bitsLt_bf16_f32 : S16x128.Idx → EReal)
      = Cert.Mlp.botRows w := by
  funext i
  show extractStridedSlice S16x128 ![128, 0] w slices_S144x128_S16x128_128_0 i = _
  unfold Cert.Mlp.botRows
  exact extractStridedSlice_apply _ w _ i _ (fun a => match a with
    | ⟨0, _⟩ => rfl
    | ⟨1, _⟩ => (Nat.zero_add _).symm)

/-- A converted square weight matrix is the matrix. -/
theorem conv_eq (w : (⟨S128x128, .f32⟩ : BufTy).Contents (Elt Ideal)) :
    (truncf (F := Ideal) .bf16 w bitsLt_bf16_f32 : S128x128.Idx → EReal) = w := rfl

/-- A bias reshaped to one row, at (0, k), is the bias at k. -/
theorem bias_eq (b : (⟨S128, .f32⟩ : BufTy).Contents (Elt Ideal)) :
    (fun k : Fin 128 => (shapeCast S1x128 b shapeCasts_S128_S1x128 : S1x128.Idx → EReal) (ix2 0 k)) = fun k => b (ix1 k) := by
  funext k
  refine shapeCast_apply b shapeCasts_S128_S1x128 (ix2 0 k) (ix1 k) ?_
  rw [Shape.rowMajor_val_one, Shape.rowMajor_val_two]
  show k.val = 0 * 128 + k.val
  omega

end Cert.KernelIdeal.IdealForms

end
-- ==== Proof.RegionValue.lean ====
/-
  What the kernel program's two tiled regions leave in their output arrays, at extended reals, as functions of the
  arrays each region finds when it is entered.

  Region 0 walks the 1600000 edge rows in 200 blocks of 8000 rows; at each block the body computes, from the block of
  gathered features, the block of edge attributes and the whole weight and bias arrays, two layers: a product with
  the 128 feature rows of the first weight matrix plus a product with its 16 attribute rows, a bias, a maximum with
  zero, a second product and a bias. That is the edge perceptron of the block, and the perceptron is row-wise, so
  the block written back is the corresponding block of the edge perceptron of the whole arrays; the 200 blocks tile
  the output array, which therefore ends holding that perceptron. Region 1 is the same over the 100000 node rows
  in 10 blocks of 10000 rows, with the one-product first layer of the node perceptron.
-/
import proofs.«107027_j12180527251595_1_alg».proof.Proof.Gen.KernelIdeal.Frame
import proofs.«107027_j12180527251595_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open scoped BigOperators

/-! ## The matrix products at an index -/

theorem lhsA_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsA_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsA_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsA_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The [8000,128] × [128,128] product into the zero accumulator, at row `p` and column `j`: the sum over the
    contracted axis. -/
theorem matmulA_apply (x : FVec Ideal S8000x128 .bf16) (w : FVec Ideal S128x128 .bf16) (p : Fin 8000) (j : Fin 128) :
    matmul (F := Ideal) dot_S8000x128_S128x128_S8000x128_1_0_0_1_n_n none x w (constant (F := Ideal) S8000x128 .f32 0x00000000#32) (ValueIdx.ix2 p j)
      = ∑ a : Fin 128, x (ValueIdx.ix2 p a) * w (ValueIdx.ix2 a j) := by
  refine (Ideal.matmul_constant_zero_apply dot_S8000x128_S128x128_S8000x128_1_0_0_1_n_n none x w (ValueIdx.ix2 p j)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ValueIdx.ix2 p j) ((ValueIdx.contrEquiv1 dot_S8000x128_S128x128_S8000x128_1_0_0_1_n_n 128 rfl rfl).symm k) = ValueIdx.ix2 p k := funext fun a => Fin.ext (by
    match a with
    | ⟨0, _⟩ => exact lhsA_0 _ _
    | ⟨1, _⟩ => exact (lhsA_1 _ _).trans hk)
  have er : dot_S8000x128_S128x128_S8000x128_1_0_0_1_n_n.rhsIdx (ValueIdx.ix2 p j) ((ValueIdx.contrEquiv1 dot_S8000x128_S128x128_S8000x128_1_0_0_1_n_n 128 rfl rfl).symm k) = ValueIdx.ix2 k j := funext fun a => Fin.ext (by
    match a with
    | ⟨0, _⟩ => exact (rhsA_0 _ _).trans hk
    | ⟨1, _⟩ => exact rhsA_1 _ _)
  rw [el, er]

theorem lhsB_0 (i : S8000x128.Idx) (q : dot_S8000x16_S16x128_S8000x128_1_0_0_1_n_n.contr.Idx) :
    (dot_S8000x16_S16x128_S8000x128_1_0_0_1_n_n.lhsIdx i q 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
theorem lhsB_1 (i : S8000x128.Idx) (q : dot_S8000x16_S16x128_S8000x128_1_0_0_1_n_n.contr.Idx) :
    (dot_S8000x16_S16x128_S8000x128_1_0_0_1_n_n.lhsIdx i q 1).val = (q ⟨0, by decide⟩).val :=
  dot_S8000x16_S16x128_S8000x128_1_0_0_1_n_n.lhsIdx_val_of_single rfl i q
theorem rhsB_0 (i : S8000x128.Idx) (q : dot_S8000x16_S16x128_S8000x128_1_0_0_1_n_n.contr.Idx) :
    (dot_S8000x16_S16x128_S8000x128_1_0_0_1_n_n.rhsIdx i q 0).val = (q ⟨0, by decide⟩).val :=
  dot_S8000x16_S16x128_S8000x128_1_0_0_1_n_n.rhsIdx_val_of_single rfl i q
theorem rhsB_1 (i : S8000x128.Idx) (q : dot_S8000x16_S16x128_S8000x128_1_0_0_1_n_n.contr.Idx) :
    (dot_S8000x16_S16x128_S8000x128_1_0_0_1_n_n.rhsIdx i q 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

/-- The [8000,16] × [16,128] product into the zero accumulator, at row `p` and column `j`: the sum over the
    contracted axis. -/
theorem matmulB_apply (x : FVec Ideal S8000x16 .bf16) (w : FVec Ideal S16x128 .bf16) (p : Fin 8000) (j : Fin 128) :
    matmul (F := Ideal) dot_S8000x16_S16x128_S8000x128_1_0_0_1_n_n none x w (constant (F := Ideal) S8000x128 .f32 0x00000000#32) (ValueIdx.ix2 p j)
      = ∑ a : Fin 16, x (ValueIdx.ix2 p a) * w (ValueIdx.ix2 a j) := by
  refine (Ideal.matmul_constant_zero_apply dot_S8000x16_S16x128_S8000x128_1_0_0_1_n_n none x w (ValueIdx.ix2 p j)).trans ?_
  rw [← Equiv.sum_comp (ValueIdx.contrEquiv1 dot_S8000x16_S16x128_S8000x128_1_0_0_1_n_n 16 rfl rfl).symm]
  refine Finset.sum_congr rfl fun k _ => ?_
  have hk := ValueIdx.contrEquiv1_symm_val dot_S8000x16_S16x128_S8000x128_1_0_0_1_n_n 16 rfl rfl k
  have el : dot_S8000x16_S16x128_S8000x128_1_0_0_1_n_n.lhsIdx (ValueIdx.ix2 p j) ((ValueIdx.contrEquiv1 dot_S8000x16_S16x128_S8000x128_1_0_0_1_n_n 16 rfl rfl).symm k) = ValueIdx.ix2 p k := funext fun a => Fin.ext (by
    match a with
    | ⟨0, _⟩ => exact lhsB_0 _ _
    | ⟨1, _⟩ => exact (lhsB_1 _ _).trans hk)
  have er : dot_S8000x16_S16x128_S8000x128_1_0_0_1_n_n.rhsIdx (ValueIdx.ix2 p j) ((ValueIdx.contrEquiv1 dot_S8000x16_S16x128_S8000x128_1_0_0_1_n_n 16 rfl rfl).symm k) = ValueIdx.ix2 k j := funext fun a => Fin.ext (by
    match a with
    | ⟨0, _⟩ => exact (rhsB_0 _ _).trans hk
    | ⟨1, _⟩ => exact rhsB_1 _ _)
  rw [el, er]

theorem lhsC_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsC_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsC_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsC_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The [10000,128] × [128,128] product into the zero accumulator, at row `p` and column `j`: the sum over the
    contracted axis. -/
theorem matmulC_apply (x : FVec Ideal S10000x128 .bf16) (w : FVec Ideal S128x128 .bf16) (p : Fin 10000) (j : Fin 128) :
    matmul (F := Ideal) dot_S10000x128_S128x128_S10000x128_1_0_0_1_n_n none x w (constant (F := Ideal) S10000x128 .f32 0x00000000#32) (ValueIdx.ix2 p j)
      = ∑ a : Fin 128, x (ValueIdx.ix2 p a) * w (ValueIdx.ix2 a j) := by
  refine (Ideal.matmul_constant_zero_apply dot_S10000x128_S128x128_S10000x128_1_0_0_1_n_n none x w (ValueIdx.ix2 p j)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ValueIdx.ix2 p j) ((ValueIdx.contrEquiv1 dot_S10000x128_S128x128_S10000x128_1_0_0_1_n_n 128 rfl rfl).symm k) = ValueIdx.ix2 p k := funext fun a => Fin.ext (by
    match a with
    | ⟨0, _⟩ => exact lhsC_0 _ _
    | ⟨1, _⟩ => exact (lhsC_1 _ _).trans hk)
  have er : dot_S10000x128_S128x128_S10000x128_1_0_0_1_n_n.rhsIdx (ValueIdx.ix2 p j) ((ValueIdx.contrEquiv1 dot_S10000x128_S128x128_S10000x128_1_0_0_1_n_n 128 rfl rfl).symm k) = ValueIdx.ix2 k j := funext fun a => Fin.ext (by
    match a with
    | ⟨0, _⟩ => exact (rhsC_0 _ _).trans hk
    | ⟨1, _⟩ => exact rhsC_1 _ _)
  rw [el, er]

/-- A [1,128] bias broadcast along the rows, at row `p` and column `q`: the bias at column `q`. -/
theorem biasA_apply (b : FVec Ideal S1x128 .f32) (p : Fin 8000) (q : Fin 128) :
    broadcastTo S8000x128 b broadcasts_S1x128_S8000x128 (ValueIdx.ix2 p q) = b (ValueIdx.ix2 0 q) :=
  broadcastTo_apply b broadcasts_S1x128_S8000x128 (ValueIdx.ix2 p q) (ValueIdx.ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The same bias broadcast along 10000 rows. -/
theorem biasC_apply (b : FVec Ideal S1x128 .f32) (p : Fin 10000) (q : Fin 128) :
    broadcastTo S10000x128 b broadcasts_S1x128_S10000x128 (ValueIdx.ix2 p q) = b (ValueIdx.ix2 0 q) :=
  broadcastTo_apply b broadcasts_S1x128_S10000x128 (ValueIdx.ix2 p q) (ValueIdx.ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-! ## The bodies' arithmetic as the perceptrons -/

/-- The edge kernel's stored value, over any loaded blocks, is the edge perceptron of those blocks. -/
theorem pay0_eq (v0 : Vec Ideal S8000x128 .bf16) (v2 : Vec Ideal S8000x16 .f32) (v4 : Vec Ideal S128x128 .bf16) (v6 : Vec Ideal S16x128 .bf16)
    (v11 : Vec Ideal S1x128 .f32) (v18 : Vec Ideal S128x128 .bf16) (v21 : Vec Ideal S1x128 .f32) :
    k0_pay1 (F := Ideal) v0 v2 v4 v6 v11 v18 v21
      = Cert.Mlp.edgeMlp (E := 8000) v0 v2 v4 v6 (fun k => v11 (ValueIdx.ix2 0 k)) v18 (fun k => v21 (ValueIdx.ix2 0 k)) := by
  funext j
  obtain ⟨p, q, rfl⟩ : ∃ (p : Fin 8000) (q : Fin 128), j = ValueIdx.ix2 p q := ⟨j 0, j 1, ValueIdx.eq_ix2 j⟩
  unfold k0_pay1
  simp only [shapeCast_self]
  simp only [ValueIdx.addf_apply, matmulA_apply, matmulB_apply, biasA_apply, ValueIdx.truncf_apply, ValueIdx.maximumf_apply, ValueIdx.broadcast_apply]
  rw [show (FloatOps.ofBits (F := Ideal) FTy.f32 0x00000000#32 : EReal) = 0 from Ideal.ofBits_zero_f32]
  rfl

/-- The node kernel's stored value, over any loaded blocks, is the node perceptron of those blocks. -/
theorem pay1_eq (v0 : Vec Ideal S10000x128 .f32) (v3 : Vec Ideal S128x128 .bf16) (v6 : Vec Ideal S1x128 .f32) (v13 : Vec Ideal S128x128 .bf16)
    (v16 : Vec Ideal S1x128 .f32) :
    k1_pay1 (F := Ideal) v0 v3 v6 v13 v16
      = Cert.Mlp.nodeMlp (N := 10000) v0 v3 (fun k => v6 (ValueIdx.ix2 0 k)) v13 (fun k => v16 (ValueIdx.ix2 0 k)) := by
  funext j
  obtain ⟨p, q, rfl⟩ : ∃ (p : Fin 10000) (q : Fin 128), j = ValueIdx.ix2 p q := ⟨j 0, j 1, ValueIdx.eq_ix2 j⟩
  unfold k1_pay1
  simp only [shapeCast_self]
  simp only [ValueIdx.addf_apply, matmulC_apply, biasC_apply, ValueIdx.truncf_apply, ValueIdx.maximumf_apply, ValueIdx.broadcast_apply]
  rw [show (FloatOps.ofBits (F := Ideal) FTy.f32 0x00000000#32 : EReal) = 0 from Ideal.ofBits_zero_f32]
  rfl

/-- The whole-block accesses' offsets are zero on both axes. -/
theorem zero_offsets : (![0, 0] : Fin 2 → Nat) = fun _ => 0 := funext fun a => by fin_cases a <;> rfl

/-! ## Region 0: from the blocks to the array -/

section Region0
variable (V : (c : Dev nD) → (b : Ref sig .tc) → Buf (Elt Ideal) ((c : Thread nD τ).loc b))

/-- The edge perceptron of the arrays the region finds. -/
abbrev edgeArr (c : Dev nD) : Cert.Mlp.Mat 1600000 128 :=
  Cert.Mlp.edgeMlp (V c main_v11) (V c main_arg2) (V c main_v13) (V c main_v15) (fun k => V c main_v17 (ValueIdx.ix2 0 k))
    (V c main_v16) (fun k => V c main_v18 (ValueIdx.ix2 0 k))

/-- The printed index maps over the 200 grid points: the three row-blocked windows are at block row `t`, block column 0; every
    weight and bias window is at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem row_lt0 (t : Fin cfg0.N) (p : Fin 8000) : t.val * 8000 + p.val < 1600000 := by
  have h : t.val < 200 := t.isLt
  have hp := p.isLt
  omega

/-- Row `p` of point `t`'s block is row `t·8000 + p` of the array. -/
def row0 (t : Fin cfg0.N) (p : Fin 8000) : Fin 1600000 := ⟨t.val * 8000 + p.val, row_lt0 t p⟩

/-- Point `t`'s block of the gathered-feature array at row `p`, column `a`. -/
theorem blk0_0 (c : Dev nD) (t : Fin cfg0.N) (p : Fin 8000) (a : Fin 128) :
    iblk0 (F := Ideal) V c 0 t (ValueIdx.ix2 p a) = (V c main_v11 : S1600000x128.Idx → EReal) (ValueIdx.ix2 (row0 t p) a) := by
  obtain ⟨e00, e01, -⟩ := index_facts0 t
  show V c main_v11 (((cfg0.win 0).blk t).view.emb (ValueIdx.ix2 p a)) = _
  refine congrArg _ (funext fun d => Fin.ext ?_)
  match d with
  | ⟨0, _⟩ => show win0_0.index t (0 : Fin 2) * 8000 + 1 * p.val = t.val * 8000 + p.val; omega
  | ⟨1, _⟩ => show win0_0.index t (1 : Fin 2) * 128 + 1 * a.val = a.val; omega

/-- Point `t`'s block of the edge-attribute array at row `p`, column `b`. -/
theorem blk0_1 (c : Dev nD) (t : Fin cfg0.N) (p : Fin 8000) (b : Fin 16) :
    iblk0 (F := Ideal) V c 1 t (ValueIdx.ix2 p b) = (V c main_arg2 : S1600000x16.Idx → EReal) (ValueIdx.ix2 (row0 t p) b) := by
  obtain ⟨-, -, e10, e11, -⟩ := index_facts0 t
  show V c main_arg2 (((cfg0.win 1).blk t).view.emb (ValueIdx.ix2 p b)) = _
  refine congrArg _ (funext fun d => Fin.ext ?_)
  match d with
  | ⟨0, _⟩ => show win0_1.index t (0 : Fin 2) * 8000 + 1 * p.val = t.val * 8000 + p.val; omega
  | ⟨1, _⟩ => show win0_1.index t (1 : Fin 2) * 16 + 1 * b.val = b.val; omega

/-- A weight or bias window's block at any point is the whole array. -/
theorem blk0_2 (c : Dev nD) (t : Fin cfg0.N) : iblk0 (F := Ideal) V c 2 t = (V c main_v13 : S128x128.Idx → EReal) := by
  obtain ⟨-, -, -, -, e0, e1, -⟩ := index_facts0 t
  funext x
  show V c main_v13 (((cfg0.win 2).blk t).view.emb x) = _
  refine congrArg _ (funext fun d => Fin.ext ?_)
  match d with
  | ⟨0, _⟩ => show win0_2.index t (0 : Fin 2) * 128 + 1 * (x 0).val = (x 0).val; omega
  | ⟨1, _⟩ => show win0_2.index t (1 : Fin 2) * 128 + 1 * (x 1).val = (x 1).val; omega
theorem blk0_3 (c : Dev nD) (t : Fin cfg0.N) : iblk0 (F := Ideal) V c 3 t = (V c main_v15 : S16x128.Idx → EReal) := by
  obtain ⟨-, -, -, -, -, -, e0, e1, -⟩ := index_facts0 t
  funext x
  show V c main_v15 (((cfg0.win 3).blk t).view.emb x) = _
  refine congrArg _ (funext fun d => Fin.ext ?_)
  match d with
  | ⟨0, _⟩ => show win0_3.index t (0 : Fin 2) * 16 + 1 * (x 0).val = (x 0).val; omega
  | ⟨1, _⟩ => show win0_3.index t (1 : Fin 2) * 128 + 1 * (x 1).val = (x 1).val; omega
theorem blk0_4 (c : Dev nD) (t : Fin cfg0.N) : iblk0 (F := Ideal) V c 4 t = (V c main_v17 : S1x128.Idx → EReal) := by
  obtain ⟨-, -, -, -, -, -, -, -, e0, e1, -⟩ := index_facts0 t
  funext x
  show V c main_v17 (((cfg0.win 4).blk t).view.emb x) = _
  refine congrArg _ (funext fun d => Fin.ext ?_)
  match d with
  | ⟨0, _⟩ => show win0_4.index t (0 : Fin 2) * 1 + 1 * (x 0).val = (x 0).val; omega
  | ⟨1, _⟩ => show win0_4.index t (1 : Fin 2) * 128 + 1 * (x 1).val = (x 1).val; omega
theorem blk0_5 (c : Dev nD) (t : Fin cfg0.N) : iblk0 (F := Ideal) V c 5 t = (V c main_v16 : S128x128.Idx → EReal) := by
  obtain ⟨-, -, -, -, -, -, -, -, -, -, e0, e1, -⟩ := index_facts0 t
  funext x
  show V c main_v16 (((cfg0.win 5).blk t).view.emb x) = _
  refine congrArg _ (funext fun d => Fin.ext ?_)
  match d with
  | ⟨0, _⟩ => show win0_5.index t (0 : Fin 2) * 128 + 1 * (x 0).val = (x 0).val; omega
  | ⟨1, _⟩ => show win0_5.index t (1 : Fin 2) * 128 + 1 * (x 1).val = (x 1).val; omega
theorem blk0_6 (c : Dev nD) (t : Fin cfg0.N) : iblk0 (F := Ideal) V c 6 t = (V c main_v18 : S1x128.Idx → EReal) := by
  obtain ⟨-, -, -, -, -, -, -, -, -, -, -, -, e0, e1, -⟩ := index_facts0 t
  funext x
  show V c main_v18 (((cfg0.win 6).blk t).view.emb x) = _
  refine congrArg _ (funext fun d => Fin.ext ?_)
  match d with
  | ⟨0, _⟩ => show win0_6.index t (0 : Fin 2) * 1 + 1 * (x 0).val = (x 0).val; omega
  | ⟨1, _⟩ => show win0_6.index t (1 : Fin 2) * 128 + 1 * (x 1).val = (x 1).val; omega

/-- What the body leaves in the output block, over any input blocks: the edge perceptron of those blocks. -/
theorem out0_7_eq (x0 : Vec Ideal S8000x128 .bf16) (x1 : Vec Ideal S8000x16 .f32) (x2 : Vec Ideal S128x128 .bf16) (x3 : Vec Ideal S16x128 .bf16)
    (x4 : Vec Ideal S1x128 .f32) (x5 : Vec Ideal S128x128 .bf16) (x6 : Vec Ideal S1x128 .f32) :
    out0_7 (F := Ideal) x0 x1 x2 x3 x4 x5 x6
      = Cert.Mlp.edgeMlp (E := 8000) x0 x1 x2 x3 (fun k => x4 (ValueIdx.ix2 0 k)) x5 (fun k => x6 (ValueIdx.ix2 0 k)) := by
  unfold out0_7
  rw [View.canon_unit_zero zero_offsets]
  simp only [View.ld_unit_zero (S := S8000x128) zero_offsets, View.ld_unit_zero (S := S8000x16) zero_offsets,
    View.ld_unit_zero (S := S128x128) zero_offsets, View.ld_unit_zero (S := S16x128) zero_offsets, View.ld_unit_zero (S := S1x128) zero_offsets]
  exact pay0_eq x0 x1 x2 x3 x4 x5 x6

/-- Row `p`, column `q` of point `t`'s output block is row `t·8000 + p`, column `q` of the output array. -/
theorem emb0_7 (t : Fin cfg0.N) (p : Fin 8000) (q : Fin 128) :
    ((cfg0.win 7).blk t).view.emb (ValueIdx.ix2 p q) = (ValueIdx.ix2 (row0 t p) q : S1600000x128.Idx) := by
  obtain ⟨-, -, -, -, -, -, -, -, -, -, -, -, -, -, e0, e1⟩ := index_facts0 t
  refine funext fun d => Fin.ext ?_
  match d with
  | ⟨0, _⟩ => show win0_7.index t (0 : Fin 2) * 8000 + 1 * p.val = t.val * 8000 + p.val; omega
  | ⟨1, _⟩ => show win0_7.index t (1 : Fin 2) * 128 + 1 * q.val = q.val; omega

/-- WHAT POINT `t` WRITES BACK is block `t` of the edge perceptron of the arrays the region finds. -/
theorem flushed0_eq (c : Dev nD) (t : Fin cfg0.N) :
    (dat0 (F := Ideal) V c).flushed 7 t = ((cfg0.win 7).blk t).view.read (Elt Ideal) (edgeArr V c) := by
  show (cfg0.win 7).cut (grid0.coords t) ((dat0 V c).after 7 t) = _
  rw [after0_7, out0_7_eq]
  funext y
  obtain ⟨p, q, rfl⟩ : ∃ (p : Fin 8000) (q : Fin 128), y = ValueIdx.ix2 p q := ⟨y 0, y 1, ValueIdx.eq_ix2 y⟩
  show Cert.Mlp.edgeMlp (E := 8000) (iblk0 V c 0 t) (iblk0 V c 1 t) (iblk0 V c 2 t) (iblk0 V c 3 t) (fun k => iblk0 V c 4 t (ValueIdx.ix2 0 k))
      (iblk0 V c 5 t) (fun k => iblk0 V c 6 t (ValueIdx.ix2 0 k)) (ValueIdx.ix2 p q)
    = edgeArr V c (((cfg0.win 7).blk t).view.emb (ValueIdx.ix2 p q))
  rw [emb0_7 t p q, blk0_2 V c t, blk0_3 V c t, blk0_4 V c t, blk0_5 V c t, blk0_6 V c t]
  exact Cert.Mlp.edgeAt_row (V c main_v11) (V c main_arg2) (iblk0 V c 0 t) (iblk0 V c 1 t) _ _ _ _ _ p (row0 t p) q
    (fun a => blk0_0 V c t p a) (fun b => blk0_1 V c t p b)

/-- An index of the output array is in point `t`'s block iff each coordinate is in the block's range on its axis. -/
theorem mem_blk0 (t : Fin cfg0.N) (i : S1600000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v19).slice (win0_7.rect t)).set ↔ _
  rw [View.set_slice_whole, Rect.mem_set_unit]
  exact Iff.rfl

/-- Every index of the output array is in some point's block: row `r` is in the block of point `r / 8000`. -/
theorem cover0 (i : S1600000x128.Idx) :
    ∃ t : Fin cfg0.N, (cfg0.win 7).flush t = true ∧ i ∈ ((cfg0.win 7).blk t).view.set := by
  have hi0 : (i 0).val < 1600000 := (i 0).isLt
  have hi1 : (i 1).val < 128 := (i 1).isLt
  have ht : (i 0).val / 8000 < 200 := by omega
  refine ⟨⟨(i 0).val / 8000, ht⟩, flush0_7 _, ?_⟩
  rw [mem_blk0]
  obtain ⟨-, -, -, -, -, -, -, -, -, -, -, -, -, -, e0, e1⟩ := index_facts0 ⟨(i 0).val / 8000, ht⟩
  have e0' : win0_7.index ⟨(i 0).val / 8000, ht⟩ (0 : Fin 2) = (i 0).val / 8000 := e0
  intro a
  match a with
  | ⟨0, _⟩ =>
    show win0_7.index ⟨(i 0).val / 8000, ht⟩ (0 : Fin 2) * 8000 ≤ (i 0).val ∧ (i 0).val < win0_7.index ⟨(i 0).val / 8000, ht⟩ (0 : Fin 2) * 8000 + 8000
    omega
  | ⟨1, _⟩ =>
    show win0_7.index ⟨(i 0).val / 8000, ht⟩ (1 : Fin 2) * 128 ≤ (i 1).val ∧ (i 1).val < win0_7.index ⟨(i 0).val / 8000, ht⟩ (1 : Fin 2) * 128 + 128
    omega

/-- THE EDGE ARRAY after region 0: the edge perceptron of the arrays the region finds. -/
theorem region0_array (c : Dev nD) :
    (dat0 (F := Ideal) V c).arrAt 7 cfg0.N
      = Cert.Mlp.edgeMlp (V c main_v11) (V c main_arg2) (V c main_v13) (V c main_v15) (fun k => V c main_v17 (ValueIdx.ix2 0 k))
          (V c main_v16) (fun k => V c main_v18 (ValueIdx.ix2 0 k)) :=
  (dat0 V c).arrAt_eq_of_cover 7 (edgeArr V c) (fun t _ => flushed0_eq V c t) cover0

end Region0

/-! ## Region 1: from the blocks to the array -/

section Region1
variable (V : (c : Dev nD) → (b : Ref sig .tc) → Buf (Elt Ideal) ((c : Thread nD τ).loc b))

/-- The node perceptron of the arrays the region finds. -/
abbrev nodeArr (c : Dev nD) : Cert.Mlp.Mat 100000 128 :=
  Cert.Mlp.nodeMlp (V c main_v31) (V c main_v32) (fun k => V c main_v34 (ValueIdx.ix2 0 k)) (V c main_v33) (fun k => V c main_v35 (ValueIdx.ix2 0 k))

/-- The printed index maps over the 10 grid points: the two row-blocked windows are at block row `t`, block column 0; every
    weight and bias window is at block (0, 0). -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt1 (t : Fin cfg1.N) (p : Fin 10000) : t.val * 10000 + p.val < 100000 := by
  have h : t.val < 10 := t.isLt
  have hp := p.isLt
  omega

/-- Row `p` of point `t`'s block is row `t·10000 + p` of the array. -/
def row1 (t : Fin cfg1.N) (p : Fin 10000) : Fin 100000 := ⟨t.val * 10000 + p.val, row_lt1 t p⟩

/-- Point `t`'s block of the node-feature array at row `p`, column `a`. -/
theorem blk1_0 (c : Dev nD) (t : Fin cfg1.N) (p : Fin 10000) (a : Fin 128) :
    iblk1 (F := Ideal) V c 0 t (ValueIdx.ix2 p a) = (V c main_v31 : S100000x128.Idx → EReal) (ValueIdx.ix2 (row1 t p) a) := by
  obtain ⟨e00, e01, -⟩ := index_facts1 t
  show V c main_v31 (((cfg1.win 0).blk t).view.emb (ValueIdx.ix2 p a)) = _
  refine congrArg _ (funext fun d => Fin.ext ?_)
  match d with
  | ⟨0, _⟩ => show win1_0.index t (0 : Fin 2) * 10000 + 1 * p.val = t.val * 10000 + p.val; omega
  | ⟨1, _⟩ => show win1_0.index t (1 : Fin 2) * 128 + 1 * a.val = a.val; omega

/-- A weight or bias window's block at any point is the whole array. -/
theorem blk1_1 (c : Dev nD) (t : Fin cfg1.N) : iblk1 (F := Ideal) V c 1 t = (V c main_v32 : S128x128.Idx → EReal) := by
  obtain ⟨-, -, e0, e1, -⟩ := index_facts1 t
  funext x
  show V c main_v32 (((cfg1.win 1).blk t).view.emb x) = _
  refine congrArg _ (funext fun d => Fin.ext ?_)
  match d with
  | ⟨0, _⟩ => show win1_1.index t (0 : Fin 2) * 128 + 1 * (x 0).val = (x 0).val; omega
  | ⟨1, _⟩ => show win1_1.index t (1 : Fin 2) * 128 + 1 * (x 1).val = (x 1).val; omega
theorem blk1_2 (c : Dev nD) (t : Fin cfg1.N) : iblk1 (F := Ideal) V c 2 t = (V c main_v34 : S1x128.Idx → EReal) := by
  obtain ⟨-, -, -, -, e0, e1, -⟩ := index_facts1 t
  funext x
  show V c main_v34 (((cfg1.win 2).blk t).view.emb x) = _
  refine congrArg _ (funext fun d => Fin.ext ?_)
  match d with
  | ⟨0, _⟩ => show win1_2.index t (0 : Fin 2) * 1 + 1 * (x 0).val = (x 0).val; omega
  | ⟨1, _⟩ => show win1_2.index t (1 : Fin 2) * 128 + 1 * (x 1).val = (x 1).val; omega
theorem blk1_3 (c : Dev nD) (t : Fin cfg1.N) : iblk1 (F := Ideal) V c 3 t = (V c main_v33 : S128x128.Idx → EReal) := by
  obtain ⟨-, -, -, -, -, -, e0, e1, -⟩ := index_facts1 t
  funext x
  show V c main_v33 (((cfg1.win 3).blk t).view.emb x) = _
  refine congrArg _ (funext fun d => Fin.ext ?_)
  match d with
  | ⟨0, _⟩ => show win1_3.index t (0 : Fin 2) * 128 + 1 * (x 0).val = (x 0).val; omega
  | ⟨1, _⟩ => show win1_3.index t (1 : Fin 2) * 128 + 1 * (x 1).val = (x 1).val; omega
theorem blk1_4 (c : Dev nD) (t : Fin cfg1.N) : iblk1 (F := Ideal) V c 4 t = (V c main_v35 : S1x128.Idx → EReal) := by
  obtain ⟨-, -, -, -, -, -, -, -, e0, e1, -⟩ := index_facts1 t
  funext x
  show V c main_v35 (((cfg1.win 4).blk t).view.emb x) = _
  refine congrArg _ (funext fun d => Fin.ext ?_)
  match d with
  | ⟨0, _⟩ => show win1_4.index t (0 : Fin 2) * 1 + 1 * (x 0).val = (x 0).val; omega
  | ⟨1, _⟩ => show win1_4.index t (1 : Fin 2) * 128 + 1 * (x 1).val = (x 1).val; omega

/-- What the body leaves in the output block, over any input blocks: the node perceptron of those blocks. -/
theorem out1_5_eq (x0 : Vec Ideal S10000x128 .f32) (x1 : Vec Ideal S128x128 .bf16) (x2 : Vec Ideal S1x128 .f32) (x3 : Vec Ideal S128x128 .bf16)
    (x4 : Vec Ideal S1x128 .f32) :
    out1_5 (F := Ideal) x0 x1 x2 x3 x4
      = Cert.Mlp.nodeMlp (N := 10000) x0 x1 (fun k => x2 (ValueIdx.ix2 0 k)) x3 (fun k => x4 (ValueIdx.ix2 0 k)) := by
  unfold out1_5
  rw [View.canon_unit_zero zero_offsets]
  simp only [View.ld_unit_zero (S := S10000x128) zero_offsets, View.ld_unit_zero (S := S128x128) zero_offsets, View.ld_unit_zero (S := S1x128) zero_offsets]
  exact pay1_eq x0 x1 x2 x3 x4

/-- Row `p`, column `q` of point `t`'s output block is row `t·10000 + p`, column `q` of the output array. -/
theorem emb1_5 (t : Fin cfg1.N) (p : Fin 10000) (q : Fin 128) :
    ((cfg1.win 5).blk t).view.emb (ValueIdx.ix2 p q) = (ValueIdx.ix2 (row1 t p) q : S100000x128.Idx) := by
  obtain ⟨-, -, -, -, -, -, -, -, -, -, e0, e1⟩ := index_facts1 t
  refine funext fun d => Fin.ext ?_
  match d with
  | ⟨0, _⟩ => show win1_5.index t (0 : Fin 2) * 10000 + 1 * p.val = t.val * 10000 + p.val; omega
  | ⟨1, _⟩ => show win1_5.index t (1 : Fin 2) * 128 + 1 * q.val = q.val; omega

/-- WHAT POINT `t` WRITES BACK is block `t` of the node perceptron of the arrays the region finds. -/
theorem flushed1_eq (c : Dev nD) (t : Fin cfg1.N) :
    (dat1 (F := Ideal) V c).flushed 5 t = ((cfg1.win 5).blk t).view.read (Elt Ideal) (nodeArr V c) := by
  show (cfg1.win 5).cut (grid1.coords t) ((dat1 V c).after 5 t) = _
  rw [after1_5, out1_5_eq]
  funext y
  obtain ⟨p, q, rfl⟩ : ∃ (p : Fin 10000) (q : Fin 128), y = ValueIdx.ix2 p q := ⟨y 0, y 1, ValueIdx.eq_ix2 y⟩
  show Cert.Mlp.nodeMlp (N := 10000) (iblk1 V c 0 t) (iblk1 V c 1 t) (fun k => iblk1 V c 2 t (ValueIdx.ix2 0 k))
      (iblk1 V c 3 t) (fun k => iblk1 V c 4 t (ValueIdx.ix2 0 k)) (ValueIdx.ix2 p q)
    = nodeArr V c (((cfg1.win 5).blk t).view.emb (ValueIdx.ix2 p q))
  rw [emb1_5 t p q, blk1_1 V c t, blk1_2 V c t, blk1_3 V c t, blk1_4 V c t]
  exact Cert.Mlp.nodeAt_row (V c main_v31) (iblk1 V c 0 t) _ _ _ _ p (row1 t p) q (fun a => blk1_0 V c t p a)

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v36).slice (win1_5.rect t)).set ↔ _
  rw [View.set_slice_whole, Rect.mem_set_unit]
  exact Iff.rfl

/-- Every index of the output array is in some point's block: row `r` is in the block of point `r / 10000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 10000 < 10 := by omega
  refine ⟨⟨(i 0).val / 10000, ht⟩, flush1_5 _, ?_⟩
  rw [mem_blk1]
  obtain ⟨-, -, -, -, -, -, -, -, -, -, e0, e1⟩ := index_facts1 ⟨(i 0).val / 10000, ht⟩
  have e0' : win1_5.index ⟨(i 0).val / 10000, ht⟩ (0 : Fin 2) = (i 0).val / 10000 := e0
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    omega
  | ⟨1, _⟩ =>
    show win1_5.index ⟨(i 0).val / 10000, ht⟩ (1 : Fin 2) * 128 ≤ (i 1).val ∧ (i 1).val < win1_5.index ⟨(i 0).val / 10000, ht⟩ (1 : Fin 2) * 128 + 128
    omega

/-- THE NODE ARRAY after region 1: the node perceptron of the arrays the region finds. -/
theorem region1_array (c : Dev nD) :
    (dat1 (F := Ideal) V c).arrAt 5 cfg1.N
      = Cert.Mlp.nodeMlp (V c main_v31) (V c main_v32) (fun k => V c main_v34 (ValueIdx.ix2 0 k)) (V c main_v33)
          (fun k => V c main_v35 (ValueIdx.ix2 0 k)) :=
  (dat1 V c).arrAt_eq_of_cover 5 (nodeArr V c) (fun t _ => flushed1_eq V c t) cover1

end Region1

end Cert.KernelIdeal.RegionValue

end
-- ==== Proof.KernelValue.lean ====
/-
  The kernel program's result as ONE function of its arguments, at the ideal instance.

  The first region leaves the edge perceptron of the gathered source features and the edge attributes; the host
  stretch between the regions forms the mean message per node from it; the second region leaves the node perceptron
  of that mean. Each region's output array is what its row blocks, computed point by point, add up to (the regions'
  value lemmas), and each operand a region reads is the host operations' function of the launch memory.
-/
import proofs.«107027_j12180527251595_1_alg».proof.Proof.KernelRun
import proofs.«107027_j12180527251595_1_alg».proof.Proof.HostChains
import proofs.«107027_j12180527251595_1_alg».proof.Proof.IdealForms
import proofs.«107027_j12180527251595_1_alg».proof.Proof.RegionValue

noncomputable section

namespace Cert.KernelIdeal.KernelValue

open Cert.KernelIdeal Cert.KernelIdeal.Gen
open Idealize.ShloMosaic Idealize.ShloMosaic.TcCoe Idealize.ShloMosaic.ValueIdx
open Idealize.SL Idealize.SL.Sem

/-- The whole layer: the node perceptron of the mean over incoming edges of the edge perceptron of
    [x[source] ; edge_attr]. -/
def layer (x : (⟨S100000x128, .f32⟩ : BufTy).Contents (Elt Ideal)) (ei : (⟨S2x1600000, .i32⟩ : BufTy).Contents (Elt Ideal))
    (ea : (⟨S1600000x16, .f32⟩ : BufTy).Contents (Elt Ideal)) (w1 : (⟨S144x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (w3 : (⟨S128x128, .f32⟩ : BufTy).Contents (Elt Ideal))
    (b3 : (⟨S128, .f32⟩ : BufTy).Contents (Elt Ideal)) (w4 : (⟨S128x128, .f32⟩ : BufTy).Contents (Elt Ideal))
    (b4 : (⟨S128, .f32⟩ : BufTy).Contents (Elt Ideal)) : (⟨S100000x128, .f32⟩ : BufTy).Contents (Elt Ideal) :=
  Cert.Mlp.nodeMlp
    (HostChains.meanOf (F := Ideal)
      (Cert.Mlp.edgeMlp (HostChains.gathered (F := Ideal) x ei) ea (Cert.Mlp.topRows w1) (Cert.Mlp.botRows w1)
        (fun k => b1 (ix1 k)) w2 (fun k => b2 (ix1 k))) ei)
    w3 (fun k => b3 (ix1 k)) w4 (fun k => b4 (ix1 k))

variable (m : (ℓ : Loc nD τ sig) → Buf (Elt Ideal) ℓ) (ρ : Dev nD → PrngReg)

/-- The edge messages the first region leaves. -/
theorem edge_array (c : Dev nD) : W2 m ρ c (Proc.devRef .tc main_v19)
    = Cert.Mlp.edgeMlp (HostChains.gathered (F := Ideal) (m ((c : Thread nD τ).loc main_arg0)) (m ((c : Thread nD τ).loc main_arg1))) (m ((c : Thread nD τ).loc main_arg2))
        (Cert.Mlp.topRows (m ((c : Thread nD τ).loc main_arg4))) (Cert.Mlp.botRows (m ((c : Thread nD τ).loc main_arg4)))
        (fun k => (m ((c : Thread nD τ).loc main_arg5)) (ix1 k)) (m ((c : Thread nD τ).loc main_arg6)) (fun k => (m ((c : Thread nD τ).loc main_arg7)) (ix1 k)) := by
  have e11 : V1 m ρ c main_v11 = HostChains.gathered (F := Ideal) (m ((c : Thread nD τ).loc main_arg0)) (m ((c : Thread nD τ).loc main_arg1)) := HostChains.W1_v11 m ρ c
  have e2 : V1 m ρ c main_arg2 = (m ((c : Thread nD τ).loc main_arg2)) := HostChains.W1_arg2 m ρ c
  have e13 : V1 m ρ c main_v13 = Cert.Mlp.topRows (m ((c : Thread nD τ).loc main_arg4)) := (HostChains.W1_v13 m ρ c).trans (IdealForms.top_eq _)
  have e15 : V1 m ρ c main_v15 = Cert.Mlp.botRows (m ((c : Thread nD τ).loc main_arg4)) := (HostChains.W1_v15 m ρ c).trans (IdealForms.bot_eq _)
  have e16 : V1 m ρ c main_v16 = (m ((c : Thread nD τ).loc main_arg6)) := (HostChains.W1_v16 m ρ c).trans (IdealForms.conv_eq _)
  have e17 : (fun k : Fin 128 => V1 m ρ c main_v17 (ix2 0 k)) = fun k => (m ((c : Thread nD τ).loc main_arg5)) (ix1 k) := by
    rw [show V1 m ρ c main_v17 = _ from HostChains.W1_v17 m ρ c]; exact IdealForms.bias_eq _
  have e18 : (fun k : Fin 128 => V1 m ρ c main_v18 (ix2 0 k)) = fun k => (m ((c : Thread nD τ).loc main_arg7)) (ix1 k) := by
    rw [show V1 m ρ c main_v18 = _ from HostChains.W1_v18 m ρ c]; exact IdealForms.bias_eq _
  rw [show W2 m ρ c (Proc.devRef .tc main_v19) = (dat0 (V1 m ρ) c).arrAt 7 cfg0.N from W2_arr m ρ c 7,
    RegionValue.region0_array (V1 m ρ) c, e11, e2, e13, e15, e16, e17, e18]

/-- The result the second region leaves: the layer of the arguments. -/
theorem result_array (c : Dev nD) : W4 m ρ c (Proc.devRef .tc main_v36)
    = layer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) := by
  have e31 : V3 m ρ c main_v31 = HostChains.meanOf (F := Ideal) (W2 m ρ c (Proc.devRef .tc main_v19)) (m ((c : Thread nD τ).loc main_arg1)) := HostChains.W3_v31 m ρ c
  have e32 : V3 m ρ c main_v32 = (m ((c : Thread nD τ).loc main_arg8)) := (HostChains.W3_v32 m ρ c).trans (IdealForms.conv_eq _)
  have e33 : V3 m ρ c main_v33 = (m ((c : Thread nD τ).loc main_arg10)) := (HostChains.W3_v33 m ρ c).trans (IdealForms.conv_eq _)
  have e34 : (fun k : Fin 128 => V3 m ρ c main_v34 (ix2 0 k)) = fun k => (m ((c : Thread nD τ).loc main_arg9)) (ix1 k) := by
    rw [show V3 m ρ c main_v34 = _ from HostChains.W3_v34 m ρ c]; exact IdealForms.bias_eq _
  have e35 : (fun k : Fin 128 => V3 m ρ c main_v35 (ix2 0 k)) = fun k => (m ((c : Thread nD τ).loc main_arg11)) (ix1 k) := by
    rw [show V3 m ρ c main_v35 = _ from HostChains.W3_v35 m ρ c]; exact IdealForms.bias_eq _
  rw [show W4 m ρ c (Proc.devRef .tc main_v36) = (dat1 (V3 m ρ) c).arrAt 5 cfg1.N from W4_arr m ρ c 5,
    RegionValue.region1_array (V3 m ρ) c, e31, e32, e33, e34, e35, edge_array m ρ c]
  rfl

/-- The kernel program's run at the ideal instance: it terminates with the result at the layer of the arguments, the
    arguments unchanged. -/
theorem run : θ_run (defs (F := Ideal)) (onTc (τ := τ) (main (F := Ideal))) ⟨m, fun _ => 0, ρ⟩ (fun r => ∀ c : Dev nD,
      r.2.mem ((c.tc : Thread nD τ).loc main_v36) = layer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_array m ρ c), (h c).2⟩) (KernelRun.run m ρ)

end Cert.KernelIdeal.KernelValue

end
-- ==== Proof.RefValue.lean ====
/-
  The reference program's two perceptron stages, read as the mathematics of the specification.

  The edge stage is a product of the concatenation [gathered rows ; edge attributes] with the 144-row weight matrix,
  a bias, a maximum with zero, a second product and a bias. Reading the concatenation at a column splits the
  144-term contraction into its 128 feature terms and its 16 attribute terms, which is exactly how the specification
  spells the first layer. The node stage is the same two layers with one product per layer, applied to the mean
  message. The gathered rows and the mean message stay opaque arrays: nothing here depends on how they were made.
-/
import proofs.«107027_j12180527251595_1_alg».proof.Proof.Gen.ReferenceIdeal.Read
import proofs.«107027_j12180527251595_1_alg».proof.Proof.Spec

noncomputable section

open scoped BigOperators

namespace Cert.RefValue

open Cert.ReferenceIdeal Cert.ReferenceIdeal.Gen Cert.ReferenceIdeal.Read Cert.Mlp
open Idealize.ShloMosaic Idealize.ShloMosaic.ValueIdx

/-! ## Where each operation reads its operands, by coordinates -/

/-- The first edge product, at row-and-hidden-column `(e, k)` and contraction position `q`, reads the concatenated
    operand at `(e, q)` … -/
theorem lidx12_at (e : Fin 1600000) (j k : Fin 128) (q : Fin 144) :
    lidx_main_v12 (lidx_main_v17 (ix2 e j) k) q = ix2 e q :=
  funext fun a => Fin.ext (by match a with | ⟨0, _⟩ => rfl | ⟨1, _⟩ => rfl)
/-- … and the weight matrix at `(q, k)`. -/
theorem ridx12_at (e : Fin 1600000) (j k : Fin 128) (q : Fin 144) :
    ridx_main_v12 (lidx_main_v17 (ix2 e j) k) q = ix2 q k :=
  funext fun a => Fin.ext (by match a with | ⟨0, _⟩ => rfl | ⟨1, _⟩ => rfl)
/-- The first edge bias, broadcast twice, is read at the hidden column `k`. -/
theorem bidx13_at (e : Fin 1600000) (j k : Fin 128) :
    idx_main_v13 (idx_main_v14 (lidx_main_v17 (ix2 e j) k)) = ix1 k :=
  funext fun a => Fin.ext (by match a with | ⟨0, _⟩ => rfl)
/-- The second edge product reads its weight matrix at `(k, j)`. -/
theorem ridx17_at (e : Fin 1600000) (j k : Fin 128) : ridx_main_v17 (ix2 e j) k = ix2 k j :=
  funext fun a => Fin.ext (by match a with | ⟨0, _⟩ => rfl | ⟨1, _⟩ => rfl)
/-- The second edge bias is read at the output column. -/
theorem bidx18_at (e : Fin 1600000) (j : Fin 128) : idx_main_v18 (idx_main_v19 (ix2 e j)) = ix1 j :=
  funext fun a => Fin.ext (by match a with | ⟨0, _⟩ => rfl)

/-- The first node product, at `(n, k)` and contraction position `a`, reads the mean message at `(n, a)` … -/
theorem lidx33_at (n : Fin 100000) (j k a : Fin 128) :
    lidx_main_v33 (lidx_main_v38 (ix2 n j) k) a = ix2 n a :=
  funext fun d => Fin.ext (by match d with | ⟨0, _⟩ => rfl | ⟨1, _⟩ => rfl)
/-- … and the weight matrix at `(a, k)`. -/
theorem ridx33_at (n : Fin 100000) (j k a : Fin 128) :
    ridx_main_v33 (lidx_main_v38 (ix2 n j) k) a = ix2 a k :=
  funext fun d => Fin.ext (by match d with | ⟨0, _⟩ => rfl | ⟨1, _⟩ => rfl)
/-- The first node bias is read at the hidden column `k`. -/
theorem bidx34_at (n : Fin 100000) (j k : Fin 128) :
    idx_main_v34 (idx_main_v35 (lidx_main_v38 (ix2 n j) k)) = ix1 k :=
  funext fun d => Fin.ext (by match d with | ⟨0, _⟩ => rfl)
/-- The second node product reads its weight matrix at `(k, j)`. -/
theorem ridx38_at (n : Fin 100000) (j k : Fin 128) : ridx_main_v38 (ix2 n j) k = ix2 k j :=
  funext fun d => Fin.ext (by match d with | ⟨0, _⟩ => rfl | ⟨1, _⟩ => rfl)
/-- The second node bias is read at the output column. -/
theorem bidx39_at (n : Fin 100000) (j : Fin 128) : idx_main_v39 (idx_main_v40 (ix2 n j)) = ix1 j :=
  funext fun d => Fin.ext (by match d with | ⟨0, _⟩ => rfl)

/-! ## The concatenated operand under the 144-term contraction -/

/-- Row `e` of [g ; ea] against column `k` of a 144-row matrix: the first 128 positions read `g` against the
    matrix's top rows, the last 16 read `ea` against its bottom rows. -/
theorem cat_sum (g : (⟨S1600000x128, .f32⟩ : BufTy).Contents (Elt Ideal)) (ea : (⟨S1600000x16, .f32⟩ : BufTy).Contents (Elt Ideal))
    (w : (⟨S144x128, .f32⟩ : BufTy).Contents (Elt Ideal))
    (e : Fin 1600000) (k : Fin 128) :
    ∑ q : Fin 144, concatenate S1600000x144 1 [⟨S1600000x128, g⟩, ⟨S1600000x16, ea⟩]
        concatenates_S1600000x128_S1600000x16_S1600000x144_d1 (ix2 e q) * w (ix2 q k)
      = (∑ a : Fin 128, g (at2 e a) * topRows w (at2 a k)) + ∑ b : Fin 16, ea (at2 e b) * botRows w (at2 b k) := by
  rw [sum_split_144]
  congr 1
  · refine Finset.sum_congr rfl fun a _ => ?_
    congr 1
    exact concatenate_pair_apply_left (t := S1600000x144) (s₁ := S1600000x128) (s₂ := S1600000x16) 1 g ea
      concatenates_S1600000x128_S1600000x16_S1600000x144_d1 _ rfl (at2 e a) (fun b => by
      match b with
      | ⟨0, _⟩ => rfl
      | ⟨1, _⟩ => rfl)
  · refine Finset.sum_congr rfl fun b _ => ?_
    congr 1
    exact concatenate_pair_apply_right (t := S1600000x144) (s₁ := S1600000x128) (s₂ := S1600000x16) 1 g ea
      concatenates_S1600000x128_S1600000x16_S1600000x144_d1 _ rfl rfl (at2 e b)
      (fun d hd => by
        match d with
        | ⟨0, _⟩ => rfl
        | ⟨1, _⟩ => exact absurd rfl hd)
      (by show b.val + 128 = 128 + b.val; omega)

/-! ## The two stages -/

/-- The edge messages of the reference are the edge perceptron of the gathered rows and the edge attributes. -/
theorem edge_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x4 : (⟨S144x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v20 (F := Ideal) x0 x1 x2 x4 x5 x6 x7
      = edgeMlp (val_main_v10 (F := Ideal) x0 x1) x2 (topRows x4) (botRows x4) (fun k => x5 (ix1 k)) x6
          (fun k => x7 (ix1 k)) := by
  funext i
  -- the output index by its two coordinates, each of a literal extent
  obtain ⟨e, j, rfl⟩ : ∃ (e : Fin 1600000) (j : Fin 128), i = ix2 e j := ⟨i 0, i 1, eq_ix2 i⟩
  -- read the stage down to the concatenated operand, outermost operation first
  rw [val_main_v20_apply, val_main_v17_apply, val_main_v19_apply, val_main_v18_apply]
  simp only [val_main_v16_apply, val_main_v15_apply, val_main_v12_apply, val_main_v14_apply, val_main_v13_apply,
    val_main_call0_v0_apply, val_main_call0_cst_apply]
  unfold val_main_v11
  -- the gathered rows are an arbitrary array from here on
  generalize val_main_v10 (F := Ideal) x0 x1 = g
  simp only [Ideal.addf_def, Ideal.maximumf_def, Ideal.ofBits_def, Ideal.ofBits_zero_f32, lidx12_at, ridx12_at,
    bidx13_at, ridx17_at, bidx18_at]
  show _ = edgeAt g x2 (topRows x4) (botRows x4) (fun k => x5 (ix1 k)) x6 (fun k => x7 (ix1 k)) e j
  unfold edgeAt
  congr 1
  refine Finset.sum_congr rfl fun k _ => ?_
  -- the 144-term contraction splits at the seam of the concatenation
  rw [cat_sum g x2 x4 e k]

/-- The node stage's hidden layer at row `n`, hidden column `k`: the mean message's row against column `k` of the
    first weight matrix, the bias, and the maximum with zero. -/
theorem hidden_node (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x4 : (⟨S144x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (n : Fin 100000) (j k : Fin 128) :
    val_main_v37 (F := Ideal) x0 x1 x2 x4 x5 x6 x7 x8 x9 (lidx_main_v38 (ix2 n j) k)
      = max ((∑ a : Fin 128, val_main_v32 (F := Ideal) x0 x1 x2 x4 x5 x6 x7 (ix2 n a) * x8 (ix2 a k)) + x9 (ix1 k)) 0 := by
  -- read the layer at this one index, outermost operation first
  rw [val_main_v37_apply, val_main_v36_apply, val_main_v33_apply, val_main_v35_apply, val_main_v34_apply,
    val_main_call1_v0_apply, val_main_call1_cst_apply]
  -- the mean message is an arbitrary array from here on
  generalize val_main_v32 (F := Ideal) x0 x1 x2 x4 x5 x6 x7 = m
  simp only [Ideal.addf_def, Ideal.maximumf_def, Ideal.ofBits_def, Ideal.ofBits_zero_f32, lidx33_at, ridx33_at,
    bidx34_at]

/-- The reference's output is the node perceptron of the mean message. -/
theorem node_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x4 : (⟨S144x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v41 (F := Ideal) x0 x1 x2 x4 x5 x6 x7 x8 x9 x10 x11
      = nodeMlp (val_main_v32 (F := Ideal) x0 x1 x2 x4 x5 x6 x7) x8 (fun k => x9 (ix1 k)) x10
          (fun k => x11 (ix1 k)) := by
  funext i
  -- the output index by its two coordinates, each of a literal extent
  obtain ⟨n, j, rfl⟩ : ∃ (n : Fin 100000) (j : Fin 128), i = ix2 n j := ⟨i 0, i 1, eq_ix2 i⟩
  -- the second layer: a product with the hidden layer and a bias
  rw [val_main_v41_apply, val_main_v38_apply, val_main_v40_apply, val_main_v39_apply, bidx39_at, Ideal.addf_def]
  show _ = nodeAt (val_main_v32 (F := Ideal) x0 x1 x2 x4 x5 x6 x7) x8 (fun k => x9 (ix1 k)) x10
    (fun k => x11 (ix1 k)) n j
  unfold nodeAt
  -- the two sides differ only under the outer sum, in the hidden layer's spelling
  refine congrArg (· + x11 (ix1 j)) (Finset.sum_congr rfl fun k _ => ?_)
  rw [hidden_node, ridx38_at]

end Cert.RefValue

end
-- ==== Proof.RefChains.lean ====
/-
  The host operations the two programs share, identified: the reference gathers x's rows at the same wrapped
  source indices (the kernel's conversion of x before the gather is the identity on extended reals), and it forms
  the mean message from its edge messages by the same scatter-adds, maximum and quotient. So each is the kernel
  program's function of the same operands; the operations themselves are never opened.
-/
import proofs.«107027_j12180527251595_1_alg».proof.Proof.Gen.ReferenceIdeal.Read
import proofs.«107027_j12180527251595_1_alg».proof.Proof.HostChains

noncomputable section

namespace Cert.RefChains

open Idealize.ShloMosaic

/-- The reference's gathered features are the kernel program's. -/
theorem gather_eq (x0 : (⟨Cert.ReferenceIdeal.S100000x128, .f32⟩ : BufTy).Contents (Elt Ideal))
    (x1 : (⟨Cert.ReferenceIdeal.S2x1600000, .i32⟩ : BufTy).Contents (Elt Ideal)) :
    Cert.ReferenceIdeal.Read.val_main_v10 (F := Ideal) x0 x1 = Cert.KernelIdeal.HostChains.gathered (F := Ideal) x0 x1 := rfl

/-- The reference's mean message is the kernel program's mean of the reference's edge messages. -/
theorem mean_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x4 : (⟨Cert.ReferenceIdeal.S144x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) :
    Cert.ReferenceIdeal.Read.val_main_v32 (F := Ideal) x0 x1 x2 x4 x5 x6 x7
      = Cert.KernelIdeal.HostChains.meanOf (F := Ideal) (Cert.ReferenceIdeal.Read.val_main_v20 (F := Ideal) x0 x1 x2 x4 x5 x6 x7) x1 := by
  unfold Cert.ReferenceIdeal.Read.val_main_v32 Cert.ReferenceIdeal.Read.val_main_v23
  generalize Cert.ReferenceIdeal.Read.val_main_v20 (F := Ideal) x0 x1 x2 x4 x5 x6 x7 = h
  rfl

end Cert.RefChains

end
-- ==== Proof.lean ====
/-
  The certificate of a message-passing layer: for every edge, a two-layer perceptron of [x[source] ; edge_attr]; per
  destination node, the mean of its incoming messages (a scatter-added sum over a scatter-added count held at least
  1); per node, a second two-layer perceptron of that mean.

  The kernel's program computes the two perceptrons in two pipelined regions over row blocks (8000 edges, 10000
  nodes at a time), with the weights converted to a narrower float format and the first layer's product split into
  the 128 feature rows and the 16 attribute rows of W1; the gather, the scatter-adds and the quotient stay host
  operations. The reference concatenates the gathered features with the attributes and multiplies by W1 whole. On
  extended reals a change of format is the identity and a sum over the 144 concatenated columns is the sum over the
  first 128 plus the sum over the last 16 (addition is commutative and associative there; no finiteness is used), so
  both programs end at ONE function of the arguments, `KernelValue.layer`: the kernel's by its regions' blocks adding
  up to the whole arrays, the reference's by reading its operations index by index. The gather and the two
  scatter-adds are the same operations of the same operands on both sides and are never opened. The three frames
  are the generated ones (the reference's is its run with the result dropped); the idealization applied no rewrite,
  so there is nothing to preserve.
-/
import proofs.«107027_j12180527251595_1_alg».proof.Defs
import proofs.«107027_j12180527251595_1_alg».proof.Proof.Gen.Kernel
import proofs.«107027_j12180527251595_1_alg».proof.Proof.Gen.Kernel.Skeleton
import proofs.«107027_j12180527251595_1_alg».proof.Proof.Gen.Kernel.Launch
import proofs.«107027_j12180527251595_1_alg».proof.Proof.Gen.Kernel.Points
import proofs.«107027_j12180527251595_1_alg».proof.Proof.Gen.Kernel.Frame
import proofs.«107027_j12180527251595_1_alg».proof.Proof.Gen.KernelIdeal
import proofs.«107027_j12180527251595_1_alg».proof.Proof.Gen.KernelIdeal.Skeleton
import proofs.«107027_j12180527251595_1_alg».proof.Proof.Gen.KernelIdeal.Launch
import proofs.«107027_j12180527251595_1_alg».proof.Proof.Gen.KernelIdeal.Points
import proofs.«107027_j12180527251595_1_alg».proof.Proof.Gen.KernelIdeal.Frame
import proofs.«107027_j12180527251595_1_alg».proof.Proof.Gen.ReferenceIdeal
import proofs.«107027_j12180527251595_1_alg».proof.Proof.Gen.Pre_finite_inputs
import proofs.«107027_j12180527251595_1_alg».proof.Proof.Gen.ReferenceIdeal.Run
import proofs.«107027_j12180527251595_1_alg».proof.Proof.Gen.ReferenceIdeal.Read
import proofs.«107027_j12180527251595_1_alg».proof.Proof.KernelValue
import proofs.«107027_j12180527251595_1_alg».proof.Proof.RefValue
import proofs.«107027_j12180527251595_1_alg».proof.Proof.RefChains
import Idealize.ShloMosaic.Adequacy
import Idealize.ShloMosaic.Init

noncomputable section

namespace Cert.Proof

open Idealize.ShloMosaic Idealize.SL.Sem

/-- The word-level kernel terminates, faults nowhere and leaves its arguments alone: its generated frame. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the same layer of its arguments: its two perceptrons read index by index, the gather
    and the mean shared with the kernel's program as whole operations. -/
theorem reference_result (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000x16, .f32⟩ : BufTy).Contents (Elt Ideal))
    (x4 : (⟨Cert.ReferenceIdeal.S144x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal))
    (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) :
    Cert.ReferenceIdeal.Read.val_main_v41 (F := Ideal) x0 x1 x2 x4 x5 x6 x7 x8 x9 x10 x11
      = Cert.KernelIdeal.KernelValue.layer x0 x1 x2 x4 x5 x6 x7 x8 x9 x10 x11 := by
  rw [Cert.RefValue.node_eq, Cert.RefChains.mean_eq, Cert.RefValue.edge_eq, Cert.RefChains.gather_eq]
  rfl

/-- From memories agreeing on the arguments both idealized programs end at the layer of the arguments. -/
theorem algebraic : Cert.algebraic_KernelIdeal_ReferenceIdeal := by
  intro m ρ m' ρ' _ hagree
  refine ⟨fun c => Cert.KernelIdeal.KernelValue.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v41_eq, reference_result, a0, a1, a2, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
